-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel

variable [Facts]

def fn {F : FTy → Type} [FloatOps F] (main_arg0 : FVec F S128x512x512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  main_v3
-- ==== Kernel.lean ====
abbrev S128x512x512 : Shape := ⟨3, ![128, 512, 512]⟩
abbrev S128x8x8 : Shape := ⟨3, ![128, 8, 8]⟩
abbrev S8x512x512 : Shape := ⟨3, ![8, 512, 512]⟩
abbrev S8x8x8 : Shape := ⟨3, ![8, 8, 8]⟩
abbrev S8x8x64x512 : Shape := ⟨4, ![8, 8, 64, 512]⟩
abbrev S8x8x512 : Shape := ⟨3, ![8, 8, 512]⟩
abbrev S8x512x8 : Shape := ⟨3, ![8, 512, 8]⟩
abbrev S8x8x64x8 : Shape := ⟨4, ![8, 8, 64, 8]⟩
abbrev S128x64 : Shape := ⟨2, ![128, 64]⟩

abbrev nBuf : Space → Nat
  | .hbm => 3
  | .vmem => 4
  | .smem => 0
  | _ => 0

abbrev bufTy : (tb : Table) → Fin (tcTables nBuf tb) → BufTy
  | .hbm, ⟨0, _⟩ => ⟨S128x512x512, .f32⟩
  | .hbm, ⟨1, _⟩ => ⟨S128x8x8, .f32⟩
  | .hbm, ⟨2, _⟩ => ⟨S128x64, .f32⟩
  | .local _ .vmem, ⟨0, _⟩ => ⟨S8x512x512, .f32⟩
  | .local _ .vmem, ⟨1, _⟩ => ⟨S8x512x512, .f32⟩
  | .local _ .vmem, ⟨2, _⟩ => ⟨S8x8x8, .f32⟩
  | .local _ .vmem, ⟨3, _⟩ => ⟨S8x8x8, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x512x512_S8x512x512_0_0_0 : ∀ a, (![0, 0, 0] : Fin 3 → Nat) a + S8x512x512.size a ≤ S8x512x512.size a
  h_S8x512x512 : 0 < S8x512x512.numel
  shapeCasts_S8x512x512_S8x8x64x512 : S8x512x512.ShapeCasts S8x8x64x512
  reduces_S8x8x64x512_S8x8x512 : S8x8x64x512.Reduces [2] S8x8x512
  transposes_S8x8x512_p0_2_1_S8x512x8 : S8x8x512.Transposes [0, 2, 1] S8x512x8
  shapeCasts_S8x512x8_S8x8x64x8 : S8x512x8.ShapeCasts S8x8x64x8
  reduces_S8x8x64x8_S8x8x8 : S8x8x64x8.Reduces [2] S8x8x8
  transposes_S8x8x8_p0_2_1_S8x8x8 : S8x8x8.Transposes [0, 2, 1] S8x8x8
  inb_S8x8x8_S8x8x8_0_0_0 : ∀ a, (![0, 0, 0] : Fin 3 → Nat) a + S8x8x8.size a ≤ S8x8x8.size a
  h_S8x8x8 : 0 < S8x8x8.numel
  shapeCasts_S128x8x8_S128x64 : S128x8x8.ShapeCasts S128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S128x512x512.size a
  hwx0_0 : ∀ i : grid0.Coords, EltTy.bits .f32 = 32 ∨ (Rect.block (s := S128x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x8.size a ≤ S128x8x8.size a
  hwx0_1 : ∀ i : grid0.Coords, EltTy.bits .f32 = 32 ∨ (Rect.block (s := S128x8x8) S8x8x8.size (cc0_transform_1 i) (hinb0_1 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x8x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S128x8x64x8x64 : Shape := ⟨5, ![128, 8, 64, 8, 64]⟩
abbrev S_ : Shape := ⟨0, ![]⟩
abbrev S128x8x8 : Shape := ⟨3, ![128, 8, 8]⟩
abbrev S128x64 : Shape := ⟨2, ![128, 64]⟩

abbrev nBuf : Space → Nat
  | .hbm => 5
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S128x8x64x8x64, .f32⟩
  | .hbm, ⟨2, _⟩ => ⟨S_, .f32⟩
  | .hbm, ⟨3, _⟩ => ⟨S128x8x8, .f32⟩
  | .hbm, ⟨4, _⟩ => ⟨S128x64, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S128x512x512_S128x8x64x8x64 : S128x512x512.ShapeCasts S128x8x64x8x64
  reducesTo_S128x8x64x8x64_S128x8x8_d2_4 : S128x8x64x8x64.ReducesTo [2, 4] S128x8x8
  h_S_ : 0 < S_.numel
  shapeCasts_S128x8x8_S128x64 : S128x8x8.ShapeCasts S128x64

variable [Facts₀]

class Facts : Prop extends Facts₀ where

variable [Facts]
-- ==== Proof.MinPool.lean ====
/-
  Adaptive 8 × 8 minimum pooling of a stack of 512 × 512 matrices, on the extended reals.

  `pool x` at `(b, i, j)` is the infimum of matrix `b` over the 64 × 64 region whose top-left corner is
  `(64 i, 64 j)`. An infimum is known by its lower bounds: `y ≤ pool x (b, i, j)` iff `y` is below every entry of
  the region. The same holds of a minimum folded from `+∞` over any finite family, in whatever order and however
  nested, so both ways of computing the pooled value — the rows of a region first and then its columns, or all of
  the region at once — are characterised by the same lower bounds and are therefore equal.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace MinPool

open Idealize.ShloMosaic Idealize.ShloMosaic.ValueIdx

/-- The word `0x7F800000` is `+∞`. -/
theorem top_word : Ideal.ofBits .f32 0x7F800000#32 = (⊤ : EReal) := by simp [Ideal.ofBits, Ideal.ieee]

/-! ## Lower bounds of a minimum folded from `+∞` -/

/-- A vector min-reduction from `+∞`: `y` is below the result at `j` iff it is below every source entry that is
    reduced into `j`. -/
theorem le_multiReduction_min_iff {s t : Shape} {axes : List (Fin s.rank)} (src : FVec Ideal s .f32)
    (h : s.Reduces axes t) (hφ : FKind.Formats .f32) (hacc : (0x7F800000#32 : BitVec FTy.f32.bits) = FKind.minimumf.neutral .f32 hφ)
    (j : t.Idx) (y : EReal) :
    y ≤ multiReduction .minimumf axes t src 0x7F800000#32 h hφ hacc j ↔ ∀ i : s.Idx, h.drop i = j → y ≤ src i := by
  rw [multiReduction_minimumf_eq_fold]
  refine (Finset.le_fold_min (f := src) (b := FloatOps.ofBits (F := Ideal) .f32 0x7F800000#32) y).trans ?_
  rw [Ideal.ofBits_def, top_word]
  simp only [le_top, true_and, Finset.mem_filter, Finset.mem_univ]

/-- The host's min-reduce from a rank-zero `+∞`: the same lower bounds. -/
theorem le_hostReduce_min_iff {s t : Shape} {axes : List (Fin s.rank)} (src : FVec Ideal s .f32)
    (h : s.ReducesTo axes t) (hu : 0 < (⟨0, ![]⟩ : Shape).numel) (j : t.Idx) (y : EReal) :
    y ≤ Host.reduce (FloatOps.minimumf (F := Ideal) (φ := .f32)) src (constant (F := Ideal) ⟨0, ![]⟩ .f32 0x7F800000#32) h hu j
      ↔ ∀ i : s.Idx, h.drop i = j → y ≤ src i := by
  rw [Host.reduce_eq_fold]
  refine (Finset.le_fold_min (f := src) y).trans ?_
  rw [constant_apply, top_word]
  simp only [le_top, true_and, Finset.mem_filter, Finset.mem_univ]

/-! ## The pooled array -/

/-- Row `64 i + k` of a 512-row matrix. -/
abbrev at64 (i : Fin 8) (k : Fin 64) : Fin 512 := ⟨64 * i.val + k.val, by omega⟩

/-- The pooled value at `(b, i, j)`: the infimum over the region of rows `64 i …` and columns `64 j …`. -/
def pool {B : Nat} (x : (⟨3, ![B, 512, 512]⟩ : Shape).Idx → EReal) (o : (⟨3, ![B, 8, 8]⟩ : Shape).Idx) : EReal :=
  ⨅ (k1 : Fin 64) (k2 : Fin 64), x (ix3 (o 0) (at64 (o 1) k1) (at64 (o 2) k2))

theorem le_pool_iff {B : Nat} (x : (⟨3, ![B, 512, 512]⟩ : Shape).Idx → EReal) (o : (⟨3, ![B, 8, 8]⟩ : Shape).Idx) (y : EReal) :
    y ≤ pool x o ↔ ∀ (k1 : Fin 64) (k2 : Fin 64), y ≤ x (ix3 (o 0) (at64 (o 1) k1) (at64 (o 2) k2)) := by
  unfold pool; simp only [le_iInf_iff]

/-! ## The reference's arrangement: all of a region at once -/

/-- The stack viewed as `[128, 8, 64, 8, 64]` and min-reduced over its two axes of 64, from `+∞`, is the pooled
    array: entry `(b, i, k₁, j, k₂)` of the view is entry `(b, 64 i + k₁, 64 j + k₂)` of the stack. -/
theorem hostReduce_eq_pool (x : (⟨3, ![128, 512, 512]⟩ : Shape).Idx → EReal)
    (h1 : (⟨3, ![128, 512, 512]⟩ : Shape).ShapeCasts ⟨5, ![128, 8, 64, 8, 64]⟩)
    (h2 : (⟨5, ![128, 8, 64, 8, 64]⟩ : Shape).ReducesTo [2, 4] ⟨3, ![128, 8, 8]⟩) (hu : 0 < (⟨0, ![]⟩ : Shape).numel) :
    Host.reduce (FloatOps.minimumf (F := Ideal) (φ := .f32)) (shapeCast ⟨5, ![128, 8, 64, 8, 64]⟩ x h1)
      (constant (F := Ideal) ⟨0, ![]⟩ .f32 0x7F800000#32) h2 hu = pool x := by
  funext o
  refine eq_of_forall_le_iff fun y => ?_
  rw [le_hostReduce_min_iff, le_pool_iff]
  constructor
  · intro H k1 k2
    have hd : h2.drop (ix5 (o 0) (o 1) k1 (o 2) k2) = o := by
      funext b; apply Fin.ext
      match b with
      | ⟨0, _⟩ => exact h2.drop_apply_val_of_eq _ 0 0
      | ⟨1, _⟩ => exact h2.drop_apply_val_of_eq _ 1 1
      | ⟨2, _⟩ => exact h2.drop_apply_val_of_eq _ 2 3
    have := H _ hd
    rwa [shapeCast_apply x h1 _ (ix3 (o 0) (at64 (o 1) k1) (at64 (o 2) k2)) (by
      rw [Shape.rowMajor_val_three, Shape.rowMajor_val_five]
      show ((o 0).val * 512 + (64 * (o 1).val + k1.val)) * 512 + (64 * (o 2).val + k2.val)
        = ((((o 0).val * 8 + (o 1).val) * 64 + k1.val) * 8 + (o 2).val) * 64 + k2.val
      omega)] at this
  · intro H i hi
    have e0 : (o 0).val = (i 0).val := by rw [← hi]; exact h2.drop_apply_val_of_eq i 0 0
    have e1 : (o 1).val = (i 1).val := by rw [← hi]; exact h2.drop_apply_val_of_eq i 1 1
    have e2 : (o 2).val = (i 3).val := by rw [← hi]; exact h2.drop_apply_val_of_eq i 2 3
    rw [shapeCast_apply x h1 i (ix3 (o 0) (at64 (o 1) (i 2)) (at64 (o 2) (i 4))) (by
      rw [Shape.rowMajor_val_three, Shape.rowMajor_val_five]
      show ((o 0).val * 512 + (64 * (o 1).val + (i 2).val)) * 512 + (64 * (o 2).val + (i 4).val)
        = ((((i 0).val * 8 + (i 1).val) * 64 + (i 2).val) * 8 + (i 3).val) * 64 + (i 4).val
      omega)]
    exact H (i 2) (i 4)

/-! ## The kernel's arrangement: a region's rows first, then its columns -/

/-- Rows pooled: the block viewed as `[8, 8, 64, 512]` and min-reduced over its axis of 64. Below the result at
    `(b, i, c)` is below every entry `(b, 64 i + k, c)`. -/
theorem le_rowpool_iff (x : (⟨3, ![8, 512, 512]⟩ : Shape).Idx → EReal)
    (h1 : (⟨3, ![8, 512, 512]⟩ : Shape).ShapeCasts ⟨4, ![8, 8, 64, 512]⟩)
    (h2 : (⟨4, ![8, 8, 64, 512]⟩ : Shape).Reduces [2] ⟨3, ![8, 8, 512]⟩)
    (hφ : FKind.Formats .f32) (hacc : (0x7F800000#32 : BitVec FTy.f32.bits) = FKind.minimumf.neutral .f32 hφ)
    (q : (⟨3, ![8, 8, 512]⟩ : Shape).Idx) (y : EReal) :
    y ≤ multiReduction (F := Ideal) .minimumf [2] ⟨3, ![8, 8, 512]⟩ (shapeCast ⟨4, ![8, 8, 64, 512]⟩ x h1) 0x7F800000#32 h2 hφ hacc q
      ↔ ∀ k : Fin 64, y ≤ x (ix3 (q 0) (at64 (q 1) k) (q 2)) := by
  rw [le_multiReduction_min_iff]
  constructor
  · intro H k
    have hd : h2.drop (ix4 (q 0) (q 1) k (q 2)) = q := by
      funext b; apply Fin.ext
      match b with
      | ⟨0, _⟩ => exact h2.drop_apply_val_of_eq _ 0 0
      | ⟨1, _⟩ => exact h2.drop_apply_val_of_eq _ 1 1
      | ⟨2, _⟩ => exact h2.drop_apply_val_of_eq _ 2 3
    have := H _ hd
    rwa [shapeCast_apply x h1 _ (ix3 (q 0) (at64 (q 1) k) (q 2)) (by
      rw [Shape.rowMajor_val_three, Shape.rowMajor_val_four]
      show ((q 0).val * 512 + (64 * (q 1).val + k.val)) * 512 + (q 2).val
        = (((q 0).val * 8 + (q 1).val) * 64 + k.val) * 512 + (q 2).val
      omega)] at this
  · intro H i hi
    have e0 : (q 0).val = (i 0).val := by rw [← hi]; exact h2.drop_apply_val_of_eq i 0 0
    have e1 : (q 1).val = (i 1).val := by rw [← hi]; exact h2.drop_apply_val_of_eq i 1 1
    have e2 : (q 2).val = (i 3).val := by rw [← hi]; exact h2.drop_apply_val_of_eq i 2 3
    rw [shapeCast_apply x h1 i (ix3 (q 0) (at64 (q 1) (i 2)) (q 2)) (by
      rw [Shape.rowMajor_val_three, Shape.rowMajor_val_four]
      show ((q 0).val * 512 + (64 * (q 1).val + (i 2).val)) * 512 + (q 2).val
        = (((i 0).val * 8 + (i 1).val) * 64 + (i 2).val) * 512 + (i 3).val
      omega)]
    exact H (i 2)

/-- Columns pooled: the row-pooled array `v`, its last two axes exchanged, viewed as `[8, 8, 64, 8]` and
    min-reduced over its axis of 64. Below the result at `(b, j, i)` is below every `v (b, i, 64 j + k)`. -/
theorem le_colpool_iff (v : (⟨3, ![8, 8, 512]⟩ : Shape).Idx → EReal)
    (h3 : (⟨3, ![8, 8, 512]⟩ : Shape).Transposes [0, 2, 1] ⟨3, ![8, 512, 8]⟩)
    (h4 : (⟨3, ![8, 512, 8]⟩ : Shape).ShapeCasts ⟨4, ![8, 8, 64, 8]⟩)
    (h5 : (⟨4, ![8, 8, 64, 8]⟩ : Shape).Reduces [2] ⟨3, ![8, 8, 8]⟩)
    (hφ : FKind.Formats .f32) (hacc : (0x7F800000#32 : BitVec FTy.f32.bits) = FKind.minimumf.neutral .f32 hφ)
    (q : (⟨3, ![8, 8, 8]⟩ : Shape).Idx) (y : EReal) :
    y ≤ multiReduction (F := Ideal) .minimumf [2] ⟨3, ![8, 8, 8]⟩
          (shapeCast ⟨4, ![8, 8, 64, 8]⟩ (transpose ⟨3, ![8, 512, 8]⟩ [0, 2, 1] v h3) h4) 0x7F800000#32 h5 hφ hacc q
      ↔ ∀ k : Fin 64, y ≤ v (ix3 (q 0) (q 2) (at64 (q 1) k)) := by
  rw [le_multiReduction_min_iff]
  have rd : ∀ (a : Fin 8) (j : Fin 8) (k : Fin 64) (i : Fin 8) (s : (⟨4, ![8, 8, 64, 8]⟩ : Shape).Idx),
      (s 0).val = a.val → (s 1).val = j.val → (s 2).val = k.val → (s 3).val = i.val →
      shapeCast ⟨4, ![8, 8, 64, 8]⟩ (transpose ⟨3, ![8, 512, 8]⟩ [0, 2, 1] v h3) h4 s = v (ix3 a i (at64 j k)) := by
    intro a j k i s s0 s1 s2 s3
    rw [shapeCast_apply _ h4 s (ix3 a (at64 j k) i) (by
      rw [Shape.rowMajor_val_three, Shape.rowMajor_val_four]
      show (a.val * 512 + (64 * j.val + k.val)) * 8 + i.val
        = (((s 0).val * 8 + (s 1).val) * 64 + (s 2).val) * 8 + (s 3).val
      omega)]
    exact transpose_apply [0, 2, 1] v h3 _ (ix3 a i (at64 j k)) (fun b => match b with
      | ⟨0, _⟩ => rfl
      | ⟨1, _⟩ => rfl
      | ⟨2, _⟩ => rfl)
  constructor
  · intro H k
    have hd : h5.drop (ix4 (q 0) (q 1) k (q 2)) = q := by
      funext b; apply Fin.ext
      match b with
      | ⟨0, _⟩ => exact h5.drop_apply_val_of_eq _ 0 0
      | ⟨1, _⟩ => exact h5.drop_apply_val_of_eq _ 1 1
      | ⟨2, _⟩ => exact h5.drop_apply_val_of_eq _ 2 3
    have := H _ hd
    rwa [rd (q 0) (q 1) k (q 2) _ rfl rfl rfl rfl] at this
  · intro H s hs
    have e0 : (q 0).val = (s 0).val := by rw [← hs]; exact h5.drop_apply_val_of_eq s 0 0
    have e1 : (q 1).val = (s 1).val := by rw [← hs]; exact h5.drop_apply_val_of_eq s 1 1
    have e2 : (q 2).val = (s 3).val := by rw [← hs]; exact h5.drop_apply_val_of_eq s 2 3
    rw [rd (q 0) (q 1) (s 2) (q 2) s e0.symm e1.symm rfl e2.symm]
    exact H (s 2)

/-- The kernel's body: rows pooled, columns pooled, and the 8 × 8 result turned back, is the pooled block. The two
    nested minima have the lower bounds of the one infimum over the region. -/
theorem body_eq_pool (x : (⟨3, ![8, 512, 512]⟩ : Shape).Idx → EReal)
    (h1 : (⟨3, ![8, 512, 512]⟩ : Shape).ShapeCasts ⟨4, ![8, 8, 64, 512]⟩)
    (h2 : (⟨4, ![8, 8, 64, 512]⟩ : Shape).Reduces [2] ⟨3, ![8, 8, 512]⟩)
    (h3 : (⟨3, ![8, 8, 512]⟩ : Shape).Transposes [0, 2, 1] ⟨3, ![8, 512, 8]⟩)
    (h4 : (⟨3, ![8, 512, 8]⟩ : Shape).ShapeCasts ⟨4, ![8, 8, 64, 8]⟩)
    (h5 : (⟨4, ![8, 8, 64, 8]⟩ : Shape).Reduces [2] ⟨3, ![8, 8, 8]⟩)
    (h6 : (⟨3, ![8, 8, 8]⟩ : Shape).Transposes [0, 2, 1] ⟨3, ![8, 8, 8]⟩)
    (hφ : FKind.Formats .f32) (hacc : (0x7F800000#32 : BitVec FTy.f32.bits) = FKind.minimumf.neutral .f32 hφ)
    (hφ' : FKind.Formats .f32) (hacc' : (0x7F800000#32 : BitVec FTy.f32.bits) = FKind.minimumf.neutral .f32 hφ') :
    transpose ⟨3, ![8, 8, 8]⟩ [0, 2, 1]
      (multiReduction (F := Ideal) .minimumf [2] ⟨3, ![8, 8, 8]⟩
        (shapeCast ⟨4, ![8, 8, 64, 8]⟩ (transpose ⟨3, ![8, 512, 8]⟩ [0, 2, 1]
          (multiReduction (F := Ideal) .minimumf [2] ⟨3, ![8, 8, 512]⟩ (shapeCast ⟨4, ![8, 8, 64, 512]⟩ x h1) 0x7F800000#32 h2 hφ hacc)
          h3) h4) 0x7F800000#32 h5 hφ' hacc') h6
      = pool x := by
  funext o
  rw [transpose_apply [0, 2, 1] _ h6 o (ix3 (o 0) (o 2) (o 1)) (fun b => match b with
      | ⟨0, _⟩ => rfl
      | ⟨1, _⟩ => rfl
      | ⟨2, _⟩ => rfl)]
  refine eq_of_forall_le_iff fun y => ?_
  rw [le_colpool_iff, le_pool_iff]
  constructor
  · intro H k1 k2
    exact (le_rowpool_iff x h1 h2 hφ hacc _ y).mp (H k2) k1
  · intro H k2
    exact (le_rowpool_iff x h1 h2 hφ hacc (ix3 (o 0) (o 1) (at64 (o 2) k2)) y).mpr fun k1 => H k1 k2

end MinPool

end
-- ==== Proof.PoolKernel.lean ====
/-
  The idealized kernel's result. Each of the 16 grid points pools a block of 8 matrices and writes back an
  [8, 8, 8] block of the [128, 8, 8] output; the blocks tile the output, block `t` covering matrices `8 t … 8 t + 7`,
  and the pooled value of matrix `b` depends on that matrix alone, so what point `t` writes is block `t` of the
  pooled array of the whole stack. After the region the output is reshaped to [128, 64].
-/
import proofs.«175665_j63333587746929_1_alg».proof.Proof.Gen.KernelIdeal.Frame
import proofs.«175665_j63333587746929_1_alg».proof.Proof.MinPool
import Idealize.ShloMosaic.Lib.Pipeline.Value
import Idealize.ShloMosaic.Lib.StableHlo.Run

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

theorem zero_offsets : (![0, 0, 0] : Fin 3 → Nat) = fun _ => 0 := funext fun a => by fin_cases a <;> rfl

/-- The body's payload is the pooled block of the block it loads. -/
theorem payload_eq_pool (x0 : Vec Ideal S8x512x512 .f32) : k0_pay1 x0 = MinPool.pool x0 := by
  unfold k0_pay1
  exact MinPool.body_eq_pool x0 _ _ _ _ _ _ _ _ _ _

/-- The two windows move together along the batch axis, one block of 8 matrices per grid point, and neither moves
    along the other two axes. -/
theorem index_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every block of 8 matrices is some point's. -/
theorem index_onto : ∀ q : Fin 16, ∃ t : Fin cfg0.N, win0_1.index t = ![q.val, 0, 0] :=
  (by decide +kernel : ∀ q : Fin 16, ∃ t : Fin grid0.N, win0_1.index t = ![q.val, 0, 0])

/-- What point `t` writes back is block `t` of the pooled array of the whole stack. -/
theorem flushed_eq_pool (c : Dev nD) (t : Fin cfg0.N) :
    (dats m 0 c).flushed 1 t = ((cfg0.win 1).blk t).view.read (Elt Ideal) (MinPool.pool (B := 128) (V m c main_arg0)) := by
  show (cfg0.win 1).cut (grid0.coords t) ((dats m 0 c).after 1 t) = _
  rw [after0_1]
  unfold out0_1
  rw [View.canon_unit_zero zero_offsets]
  simp only [View.ld_unit_zero (S := S8x512x512) zero_offsets]
  rw [payload_eq_pool]
  obtain ⟨e0, e1, e2, e3, e4⟩ := index_facts t
  funext y
  show MinPool.pool (iblk m c 0 t) y = MinPool.pool (B := 128) (V m c main_arg0) (((cfg0.win 1).blk t).view.emb y)
  unfold MinPool.pool
  refine iInf_congr fun k1 => iInf_congr fun k2 => ?_
  show V m c main_arg0 (((cfg0.win 0).blk t).view.emb _) = V m c main_arg0 _
  refine congrArg _ (funext fun a => Fin.ext ?_)
  match a with
  | ⟨0, _⟩ =>
    show win0_0.index t (0 : Fin 3) * 8 + 1 * (y 0).val = win0_1.index t (0 : Fin 3) * 8 + 1 * (y 0).val
    omega
  | ⟨1, _⟩ =>
    show win0_0.index t (1 : Fin 3) * 512 + 1 * (64 * (y 1).val + k1.val)
      = 64 * (win0_1.index t (1 : Fin 3) * 8 + 1 * (y 1).val) + k1.val
    omega
  | ⟨2, _⟩ =>
    show win0_0.index t (2 : Fin 3) * 512 + 1 * (64 * (y 2).val + k2.val)
      = 64 * (win0_1.index t (2 : Fin 3) * 8 + 1 * (y 2).val) + k2.val
    omega

/-- An index of the output is in point `t`'s block iff each coordinate is in the block's range on its axis. -/
theorem mem_block (t : Fin cfg0.N) (i : S128x8x8.Idx) :
    i ∈ ((cfg0.win 1).blk t).view.set ↔ ∀ a : Fin 3, win0_1.index t a * S8x8x8.size a ≤ (i a).val
      ∧ (i a).val < win0_1.index t a * S8x8x8.size a + S8x8x8.size a := by
  show i ∈ ((View.whole main_v0).slice (win0_1.rect t)).set ↔ _
  rw [View.set_slice_whole, Rect.mem_set_unit]
  exact Iff.rfl

/-- Matrix `b` of the output lies in the block of point `b / 8`. -/
theorem covered (i : S128x8x8.Idx) :
    ∃ t : Fin cfg0.N, (cfg0.win 1).flush t = true ∧ i ∈ ((cfg0.win 1).blk t).view.set := by
  have hi0 : (i 0).val < 128 := (i 0).isLt
  have hi1 : (i 1).val < 8 := (i 1).isLt
  have hi2 : (i 2).val < 8 := (i 2).isLt
  obtain ⟨t, ht⟩ := index_onto ⟨(i 0).val / 8, by omega⟩
  have q0 : win0_1.index t (0 : Fin 3) = (i 0).val / 8 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 8 ≤ (i 1).val ∧ (i 1).val < win0_1.index t (1 : Fin 3) * 8 + 8; omega
  | ⟨2, _⟩ => show win0_1.index t (2 : Fin 3) * 8 ≤ (i 2).val ∧ (i 2).val < win0_1.index t (2 : Fin 3) * 8 + 8; omega

/-- The output array after the region is the pooled array of the argument. -/
theorem final_eq_pool (c : Dev nD) :
    (dats m 0 c).arrAt 1 cfg0.N = MinPool.pool (B := 128) (m ((c : Thread nD τ).loc main_arg0)) :=
  ((dats m 0 c).arrAt_eq_of_cover 1 _ (fun t _ => flushed_eq_pool m c t) covered).trans (by rw [V_main_arg0])

/-- The program's result: the pooled array, each matrix's 8 × 8 values laid out as a row of 64. -/
theorem result_eq (c : Dev nD) :
    Pipeline.afterTail₀ cfgs (dats m) 0 (V0 m) [hostOps1] c main_v1
      = shapeCast S128x64 (MinPool.pool (B := 128) (m ((c : Thread nD τ).loc main_arg0))) shapeCasts_S128x8x8_S128x64 := by
  unfold Pipeline.afterTail₀
  show StableHlo.after hostOps1 _ (Proc.devRef .tc main_v1) = _
  after_results
  exact congrArg (fun v => shapeCast S128x64 v shapeCasts_S128x8x8_S128x64)
    ((Pipeline.withArrays_arr spec0 launch0.win.arr_inj c _ _ 1).trans (final_eq_pool m c))

/-- Every weakly fair execution of the idealized kernel program terminates with its result at the pooled array,
    reshaped, and its argument unchanged. -/
theorem run : θ_run defs (onTc (τ := τ) (main (F := Ideal))) ⟨m, fun _ => 0, ρ⟩ fun r => ∀ c : Dev nD,
      r.2.mem ((c.tc : Thread nD τ).loc main_v1)
        = shapeCast S128x64 (MinPool.pool (B := 128) (m ((c.tc : Thread nD τ).loc main_arg0))) shapeCasts_S128x8x8_S128x64
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (result_eq m c),
        ((h c).1 0).trans (((dats m 0 c).arrAt_in 0 rfl _).trans ((A_eq m c 0).trans (V_main_arg0 m c)))⟩)
    (run_main m ρ)

end Cert.KernelIdeal.PoolValue

end
-- ==== Proof.PoolReference.lean ====
/-
  The idealized reference's result: the stack viewed as [128, 8, 64, 8, 64], min-reduced over both axes of 64 at
  once, and reshaped to [128, 64]. The reduce stage is the pooled array (one infimum over each 64 × 64 region).
-/
import proofs.«175665_j63333587746929_1_alg».proof.Proof.Gen.ReferenceIdeal.Run
import proofs.«175665_j63333587746929_1_alg».proof.Proof.MinPool

noncomputable section

namespace Cert.ReferenceIdeal.PoolValue

open Cert.ReferenceIdeal Cert.ReferenceIdeal.Gen Idealize.ShloMosaic Idealize.ShloMosaic.TcCoe Idealize.SL.Sem

/-- Every weakly fair execution of the idealized reference terminates with its result at the pooled array,
    reshaped, and its argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = shapeCast S128x64 (MinPool.pool (B := 128) (m ((c.tc : Thread nD τ).loc main_arg0))) shapeCasts_S128x8x8_S128x64
      ∧ r.2.mem ((c.tc : Thread nD τ).loc main_arg0) = m ((c.tc : Thread nD τ).loc main_arg0) :=
  (θ_run defs _ _).mono (fun _ h c =>
      ⟨(h c).1.trans (congrArg (fun v => shapeCast S128x64 v shapeCasts_S128x8x8_S128x64)
          (MinPool.hostReduce_eq_pool _ _ _ _)), (h c).2⟩)
    (Cert.ReferenceIdeal.Value.run (F := Ideal) m ρ)

end Cert.ReferenceIdeal.PoolValue

end
-- ==== Proof.lean ====
/-
  Adaptive 8 × 8 minimum pooling of 128 matrices of 512 × 512, flattened to [128, 64].

  The kernel pools 8 matrices per grid point: it takes the minimum over the 64 rows of each of the 8 row bands,
  then, with rows and columns exchanged, over the 64 columns of each of the 8 column bands, and turns the 8 × 8
  result back. The reference views the stack as [128, 8, 64, 8, 64] and takes the minimum over both axes of 64 at
  once. On the extended reals a minimum folded from +∞, nested or not and in any order, is the infimum of its
  family, and an infimum is determined by its lower bounds; both programs therefore compute, at (b, i, j), the
  infimum of matrix b over the region of rows 64 i … 64 i + 63 and columns 64 j … 64 j + 63 (Proof/MinPool.lean).
  No finiteness of the input is used.

  The kernel's output blocks tile the [128, 8, 8] array and each is the pooled array's block (Proof/PoolKernel.lean);
  the reference's reduce stage is the pooled array (Proof/PoolReference.lean); both end with the same reshape.
  The ideal pass rewrote nothing, so the idealization is the kernel's own text and `preserves` has no conjunct.
-/
import proofs.«175665_j63333587746929_1_alg».proof.Defs
import proofs.«175665_j63333587746929_1_alg».proof.Proof.Gen.Kernel
import proofs.«175665_j63333587746929_1_alg».proof.Proof.Gen.Kernel.Skeleton
import proofs.«175665_j63333587746929_1_alg».proof.Proof.Gen.Kernel.Launch
import proofs.«175665_j63333587746929_1_alg».proof.Proof.Gen.Kernel.Points
import proofs.«175665_j63333587746929_1_alg».proof.Proof.Gen.Kernel.Frame
import proofs.«175665_j63333587746929_1_alg».proof.Proof.Gen.KernelIdeal
import proofs.«175665_j63333587746929_1_alg».proof.Proof.Gen.KernelIdeal.Skeleton
import proofs.«175665_j63333587746929_1_alg».proof.Proof.Gen.KernelIdeal.Launch
import proofs.«175665_j63333587746929_1_alg».proof.Proof.Gen.KernelIdeal.Points
import proofs.«175665_j63333587746929_1_alg».proof.Proof.Gen.KernelIdeal.Frame
import proofs.«175665_j63333587746929_1_alg».proof.Proof.Gen.ReferenceIdeal
import proofs.«175665_j63333587746929_1_alg».proof.Proof.Gen.ReferenceIdeal.Run
import proofs.«175665_j63333587746929_1_alg».proof.Proof.Gen.Pre_finite_inputs
import proofs.«175665_j63333587746929_1_alg».proof.Proof.MinPool
import proofs.«175665_j63333587746929_1_alg».proof.Proof.PoolKernel
import proofs.«175665_j63333587746929_1_alg».proof.Proof.PoolReference
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the pooled array of the one argument, reshaped to [128, 64]. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.PoolValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
